-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩

abbrev nBuf : Space → Nat
  | .hbm => 52
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x128, .f32⟩
  | .hbm, ⟨28, _⟩ => ⟨S1600000x128, .i1⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S128x64, .f32⟩
  | .hbm, ⟨49, _⟩ => ⟨S128x64, .f32⟩
  | .hbm, ⟨50, _⟩ => ⟨S1x64, .f32⟩
  | .hbm, ⟨51, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x128, .f32⟩
  | .hbm, ⟨28, _⟩ => ⟨S1600000x128, .i1⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S128x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S128x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call1_cst : Ref sig .tc := ⟨.hbm, 56, rfl⟩
abbrev main_call1_v0 : Ref sig .tc := ⟨.hbm, 57, rfl⟩
abbrev main_call1_cst_0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_cst_1 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_v25 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelTerm.lean ====
/-
  What the kernel region finds in its five staged arrays, as pure terms of the program's arguments, for any float values.

  `meanK x e`: row r is the sum of x's rows over the edges (s, r) of e, divided by the larger of r's in-degree and 1
  (the edge list's first row holds the sources s, its second the targets r; a negative source counts from the end, a
  source still outside the array contributes a row of the fill value, a target outside the array receives nothing).
  The other staged arrays are x itself, the two weight matrices transposed, and the bias as one row.
-/
import proofs.«133941_j79319456023391_1_alg».proof.Proof.Gen.KernelIdeal.Frame
import Idealize.ShloMosaic.Lib.StableHlo.Run

noncomputable section

namespace Cert.KernelIdeal.KerTerm

open Cert.KernelIdeal Cert.KernelIdeal.Gen Idealize.ShloMosaic Idealize.ShloMosaic.TcCoe Idealize.SL.Sem Idealize.ShloMosaic.StableHlo

variable {F : FTy → Type} [FloatOps F]

/-- The sources (row 0 of the edge list) and the targets (row 1). -/
def srcK (e : IVec S2x1600000 32) : IVec S1600000 32 :=
  shapeCast S1600000 (extractStridedSlice S1x1600000 ![0, 0] e slices_S2x1600000_S1x1600000_0_0) shapeCasts_S1x1600000_S1600000
def dstK (e : IVec S2x1600000 32) : IVec S1600000 32 :=
  shapeCast S1600000 (extractStridedSlice S1x1600000 ![1, 0] e slices_S2x1600000_S1x1600000_1_0) shapeCasts_S1x1600000_S1600000

/-- The sources with a negative one counted from the end, as a column. -/
def colK (e : IVec S2x1600000 32) : IVec S1600000x1 32 :=
  broadcastInDim S1600000x1 ![0] bcast_S1600000_S1600000x1_0
    (select (cmpi .slt (srcK e) (broadcastInDim S1600000 ![] bcast_S_S1600000 (constantI S_ 32 0#32)))
      (addi (srcK e) (broadcastInDim S1600000 ![] bcast_S_S1600000 (constantI S_ 32 100000#32))) (srcK e))

/-- The gathered rows: x's row at each source, the fill value where the source is outside [0, 99999]. -/
def msgK (x : FVec F S100000x128 .f32) (e : IVec S2x1600000 32) : FVec F S1600000x128 .f32 :=
  select
    (broadcastInDim S1600000x128 ![0] bcast_S1600000_S1600000x128_0
      (Host.reduce IntOp.andi
        (andi (cmpi .sge (colK e) (broadcastInDim S1600000x1 ![] bcast_S_S1600000x1 (constantI S_ 32 0#32)))
          (cmpi .sle (colK e) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 x (colK e))
    (broadcastInDim S1600000x128 ![] bcast_S_S1600000x128 (constant S_ .f32 0x7FC00000#32))

/-- The neighbour means. -/
def meanK (x : FVec F S100000x128 .f32) (e : IVec S2x1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dstK e)) (msgK x e))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 (dstK e))
            (broadcastInDim S1600000 ![] bcast_S_S1600000 (constant S_ .f32 0x3F800000#32)))
          (broadcastInDim S100000 ![] bcast_S_S100000 (constant S_ .f32 0x3F800000#32)))))

/-- The column of sources from the sources: a negative one counted from the end. -/
private def colCore (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

private theorem colK_eq (e : IVec S2x1600000 32) : colK e = colCore (srcK e) := rfl

/-- The gathered rows from the column of sources: x's row at each entry, the fill value where the entry is outside [0, 99999]. -/
private def msgCore (x : FVec F S100000x128 .f32) (k : IVec S1600000x1 32) : FVec F S1600000x128 .f32 :=
  select
    (broadcastInDim S1600000x128 ![0] bcast_S1600000_S1600000x128_0
      (Host.reduce IntOp.andi
        (andi (cmpi .sge k (broadcastInDim S1600000x1 ![] bcast_S_S1600000x1 (constantI S_ 32 0#32)))
          (cmpi .sle k (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 x k)
    (broadcastInDim S1600000x128 ![] bcast_S_S1600000x128 (constant S_ .f32 0x7FC00000#32))

private theorem msgK_eq (x : FVec F S100000x128 .f32) (e : IVec S2x1600000 32) :
    msgK x e = msgCore x (colK e) := rfl

/-- The means from the targets and the gathered rows: the rows summed at their targets, over the larger of the count and 1. -/
private def meanCore (d : IVec S1600000 32) (g : FVec F S1600000x128 .f32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d) g)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

private theorem meanK_eq (x : FVec F S100000x128 .f32) (e : IVec S2x1600000 32) :
    meanK x e = meanCore (dstK e) (msgK x e) := rfl

/-- The called function's 23 operations over the call's own buffers, in two stretches: to the column of sources (8), then
    the gathered rows (15). Each is the program's operation at the literal buffer, where a typed reference's transport is
    the identity. -/
private abbrev takeA : List (HloOp τ sig (Elt F)) :=
  [ nullary main_call0_c (constantI S_ 32 0#32 : (⟨S_, .i32⟩ : BufTy).Contents (Elt F)),
    unary main_call0_c main_call0_v0 (broadcastInDim S1600000 ![] bcast_S_S1600000 : (⟨S_, .i32⟩ : BufTy).Contents (Elt F) → (⟨S1600000, .i32⟩ : BufTy).Contents (Elt F)),
    binary main_v1 main_call0_v0 main_call0_v1 (cmpi .slt : (⟨S1600000, .i32⟩ : BufTy).Contents (Elt F) → (⟨S1600000, .i32⟩ : BufTy).Contents (Elt F) → (⟨S1600000, .i1⟩ : BufTy).Contents (Elt F)),
    nullary main_call0_c_0 (constantI S_ 32 100000#32 : (⟨S_, .i32⟩ : BufTy).Contents (Elt F)),
    unary main_call0_c_0 main_call0_v2 (broadcastInDim S1600000 ![] bcast_S_S1600000 : (⟨S_, .i32⟩ : BufTy).Contents (Elt F) → (⟨S1600000, .i32⟩ : BufTy).Contents (Elt F)),
    binary main_v1 main_call0_v2 main_call0_v3 (addi : (⟨S1600000, .i32⟩ : BufTy).Contents (Elt F) → (⟨S1600000, .i32⟩ : BufTy).Contents (Elt F) → (⟨S1600000, .i32⟩ : BufTy).Contents (Elt F)),
    ternary main_call0_v1 main_call0_v3 main_v1 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_call0_v4 main_call0_v5 (broadcastInDim S1600000x1 ![0] bcast_S1600000_S1600000x1_0 : (⟨S1600000, .i32⟩ : BufTy).Contents (Elt F) → (⟨S1600000x1, .i32⟩ : BufTy).Contents (Elt F)) ]
private abbrev takeB : List (HloOp τ sig (Elt F)) :=
  [ nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S1600000x1 ![] bcast_S_S1600000x1 : (⟨S_, .i32⟩ : BufTy).Contents (Elt F) → (⟨S1600000x1, .i32⟩ : BufTy).Contents (Elt F)),
    binary main_call0_v5 main_call0_v6 main_call0_v7 (cmpi .sge : (⟨S1600000x1, .i32⟩ : BufTy).Contents (Elt F) → (⟨S1600000x1, .i32⟩ : BufTy).Contents (Elt F) → (⟨S1600000x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S1600000x1 ![0, 1] bcast_S1x1_S1600000x1_0_1 : (⟨S1x1, .i32⟩ : BufTy).Contents (Elt F) → (⟨S1600000x1, .i32⟩ : BufTy).Contents (Elt F)),
    binary main_call0_v5 main_call0_v9 main_call0_v10 (cmpi .sle : (⟨S1600000x1, .i32⟩ : BufTy).Contents (Elt F) → (⟨S1600000x1, .i32⟩ : BufTy).Contents (Elt F) → (⟨S1600000x1, .i1⟩ : BufTy).Contents (Elt F)),
    binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S1600000x1_S1600000_d1 h_S_ : (⟨S1600000x1, .i1⟩ : BufTy).Contents (Elt F) → (⟨S_, .i1⟩ : BufTy).Contents (Elt F) → (⟨S1600000, .i1⟩ : BufTy).Contents (Elt F)),
    binary main_arg0 main_call0_v5 main_call0_v13 (fun x i => Host.gather gather_S100000x128_S1600000x1_S1600000x128_1_0_n_n_0_1_1128 x i : (⟨S100000x128, .f32⟩ : BufTy).Contents (Elt F) → (⟨S1600000x1, .i32⟩ : BufTy).Contents (Elt F) → (⟨S1600000x128, .f32⟩ : BufTy).Contents (Elt F)),
    unary main_call0_v12 main_call0_v14 (broadcastInDim S1600000x128 ![0] bcast_S1600000_S1600000x128_0 : (⟨S1600000, .i1⟩ : BufTy).Contents (Elt F) → (⟨S1600000x128, .i1⟩ : BufTy).Contents (Elt F)),
    nullary main_call0_cst (constant S_ .f32 0x7FC00000#32 : (⟨S_, .f32⟩ : BufTy).Contents (Elt F)),
    unary main_call0_cst main_call0_v15 (broadcastInDim S1600000x128 ![] bcast_S_S1600000x128 : (⟨S_, .f32⟩ : BufTy).Contents (Elt F) → (⟨S1600000x128, .f32⟩ : BufTy).Contents (Elt F)),
    ternary main_call0_v14 main_call0_v13 main_call0_v15 main_v4 (select : (⟨S1600000x128, .i1⟩ : BufTy).Contents (Elt F) → (⟨S1600000x128, .f32⟩ : BufTy).Contents (Elt F) → (⟨S1600000x128, .f32⟩ : BufTy).Contents (Elt F) → (⟨S1600000x128, .f32⟩ : BufTy).Contents (Elt F)) ]

/-- The host operations before the region are the four slices and reshapes, those two stretches, and the nineteen after. -/
private theorem flat_split :
    (List.flatten [hostOps0, hostOps0_1, hostOps0_2] : List (HloOp τ sig (Elt F))) = hostOps0 ++ (takeA ++ (takeB ++ hostOps0_2)) := by
  chain_rfl

/-- The fold over two stretches in a row is the fold over the second from the fold over the first. -/
private theorem after_app : ∀ (l₁ l₂ : List (HloOp τ sig (Elt F))) (W : Valuation τ sig (Elt F)),
    after (l₁ ++ l₂) W = after l₂ (after l₁ W)
  | [], _, _ => rfl
  | op :: l₁, l₂, W => by rw [List.cons_append, after_cons, after_cons, after_app l₁ l₂]

/-! The slices and reshapes: the sources, the targets. -/
set_option maxHeartbeats 2000000 in
set_option maxRecDepth 8192 in
private theorem K0_v1 (W : Valuation τ sig (Elt F)) :
    after hostOps0 W (main_v1 : DevRef τ sig) = srcK (W (main_arg1 : DevRef τ sig)) := by
  unfold srcK
  after_results_simp <;> rfl

set_option maxHeartbeats 2000000 in
set_option maxRecDepth 8192 in
private theorem K0_v3 (W : Valuation τ sig (Elt F)) :
    after hostOps0 W (main_v3 : DevRef τ sig) = dstK (W (main_arg1 : DevRef τ sig)) := by
  unfold dstK
  after_results_simp <;> rfl

set_option maxHeartbeats 2000000 in
set_option maxRecDepth 8192 in
private theorem K0_main_arg0 (W : Valuation τ sig (Elt F)) :
    after hostOps0 W (main_arg0 : DevRef τ sig) = W (main_arg0 : DevRef τ sig) := by
  after_results_simp

/-! To the column of sources. -/
set_option maxHeartbeats 2000000 in
set_option maxRecDepth 8192 in
private theorem K1a_col (W : Valuation τ sig (Elt F)) :
    after takeA W (main_call0_v5 : DevRef τ sig) = colCore (W (main_v1 : DevRef τ sig)) := by
  unfold colCore
  after_results_simp <;> rfl

set_option maxHeartbeats 2000000 in
set_option maxRecDepth 8192 in
private theorem K1a_main_v3 (W : Valuation τ sig (Elt F)) :
    after takeA W (main_v3 : DevRef τ sig) = W (main_v3 : DevRef τ sig) := by
  after_results_simp

set_option maxHeartbeats 2000000 in
set_option maxRecDepth 8192 in
private theorem K1a_main_arg0 (W : Valuation τ sig (Elt F)) :
    after takeA W (main_arg0 : DevRef τ sig) = W (main_arg0 : DevRef τ sig) := by
  after_results_simp

/-! The gathered rows. -/
set_option maxHeartbeats 2000000 in
set_option maxRecDepth 8192 in
private theorem K1b_v4 (W : Valuation τ sig (Elt F)) :
    after takeB W (main_v4 : DevRef τ sig) = msgCore (W (main_arg0 : DevRef τ sig)) (W (main_call0_v5 : DevRef τ sig)) := by
  unfold msgCore
  after_results_simp <;> with_reducible rfl

set_option maxHeartbeats 2000000 in
set_option maxRecDepth 8192 in
private theorem K1b_main_v3 (W : Valuation τ sig (Elt F)) :
    after takeB W (main_v3 : DevRef τ sig) = W (main_v3 : DevRef τ sig) := by
  after_results_simp

/-! The means. -/
set_option maxHeartbeats 2000000 in
set_option maxRecDepth 8192 in
private theorem K2_v16 (W : Valuation τ sig (Elt F)) :
    after hostOps0_2 W (main_v16 : DevRef τ sig) = meanCore (W (main_v3 : DevRef τ sig)) (W (main_v4 : DevRef τ sig)) := by
  unfold meanCore
  after_results_simp <;> rfl

variable (m : (ℓ : Loc nD τ sig) → Buf (Elt F) ℓ)

/-- The first staged array holds the neighbour means of the launched features and edge list. -/
theorem V_mean (c : Dev nD) :
    (V m c main_v16 : FVec F S100000x128 .f32) = meanK (m ((c : Thread nD τ).loc main_arg0)) (m ((c : Thread nD τ).loc main_arg1)) := by
  dsimp only [V]
  rw [flat_split, after_app, after_app, after_app, K2_v16, K1b_v4, K1b_main_v3, K1a_col, K1a_main_v3, K1a_main_arg0,
    K0_v1, K0_v3, K0_main_arg0, meanK_eq, msgK_eq, colK_eq]

/-- The third staged array is the first weight matrix transposed. -/
theorem V_wlT (c : Dev nD) :
    (V m c main_v17 : FVec F S128x64 .f32) = transpose S128x64 [1, 0] (m ((c : Thread nD τ).loc main_arg2)) transposes_S64x128_S128x64_1_0 := by
  dsimp only [V]
  simp only [hostOps0, hostOps0_1, hostOps0_2, List.flatten_cons, List.flatten_nil, List.append_nil, List.cons_append, List.nil_append]
  after_results_simp

/-- The fourth staged array is the second weight matrix transposed. -/
theorem V_wrT (c : Dev nD) :
    (V m c main_v18 : FVec F S128x64 .f32) = transpose S128x64 [1, 0] (m ((c : Thread nD τ).loc main_arg4)) transposes_S64x128_S128x64_1_0 := by
  dsimp only [V]
  simp only [hostOps0, hostOps0_1, hostOps0_2, List.flatten_cons, List.flatten_nil, List.append_nil, List.cons_append, List.nil_append]
  after_results_simp

/-- The fifth staged array is the bias as one row. -/
theorem V_bias (c : Dev nD) :
    (V m c main_v19 : FVec F S1x64 .f32) = shapeCast S1x64 (m ((c : Thread nD τ).loc main_arg3)) shapeCasts_S64_S1x64 := by
  dsimp only [V]
  simp only [hostOps0, hostOps0_1, hostOps0_2, List.flatten_cons, List.flatten_nil, List.append_nil, List.cons_append, List.nil_append]
  after_results_simp
  rfl

end Cert.KernelIdeal.KerTerm

end
-- ==== Proof.Spec.lean ====
/-
  What both programs compute, index by index, on the extended reals.

  A node r has 128 input features X(r, ·) and 128 aggregated neighbour features M(r, ·). Its 64 logits are
      z(r, c) = Σ_k M(r, k) · Wl(c, k)  +  Σ_k X(r, k) · Wr(c, k)  +  b(c),
  and the result is the log-softmax of that row: with μ the maximum of the row (taken from −∞),
      out(r, c) = (z(r, c) − μ) − log Σ_k exp (z(r, k) − μ).
  The two programs differ in the order of the three summands of z (addition on the extended reals is commutative and
  associative, infinities included) and in how they tile the rows; nothing else.
-/
import Idealize.ShloMosaic.PureOps.Ideal
import Idealize.ShloMosaic.Lib.ValueIdx

noncomputable section

open scoped BigOperators

namespace Cert.Spec

open Idealize.ShloMosaic Idealize.ShloMosaic.ValueIdx

/-- The maximum of a row of 64 extended reals, folded from −∞. -/
def rowMax (z : Fin 64 → EReal) : EReal :=
  (Finset.univ : Finset (Fin 64)).fold max (Ideal.ofBits .f32 0xFF800000#32) z

/-- The log-softmax of a row at column c: the entry less the row's maximum, less the logarithm of the sum of the
    exponentials of the shifted row. -/
def logSoftmaxRow (z : Fin 64 → EReal) (c : Fin 64) : EReal :=
  (z c - rowMax z) - Ideal.log (∑ k : Fin 64, Ideal.exp (z k - rowMax z))

/-- The logit of node r and class c: the neighbour mean against row c of Wl, plus the node's own features against row c
    of Wr, plus the bias. -/
def logits (M X : (⟨2, ![100000, 128]⟩ : Shape).Idx → EReal) (Wl Wr : (⟨2, ![64, 128]⟩ : Shape).Idx → EReal)
    (b : (⟨1, ![64]⟩ : Shape).Idx → EReal) (r : Fin 100000) (c : Fin 64) : EReal :=
  (∑ k : Fin 128, M (ix2 r k) * Wl (ix2 c k)) + (∑ k : Fin 128, X (ix2 r k) * Wr (ix2 c k)) + b (ix1 c)

/-- The whole result array as one function of the neighbour means, the features, the two weight matrices and the bias. -/
def G (M X : (⟨2, ![100000, 128]⟩ : Shape).Idx → EReal) (Wl Wr : (⟨2, ![64, 128]⟩ : Shape).Idx → EReal)
    (b : (⟨1, ![64]⟩ : Shape).Idx → EReal) : (⟨2, ![100000, 64]⟩ : Shape).Idx → EReal :=
  fun i => logSoftmaxRow (logits M X Wl Wr b (i 0)) (i 1)

theorem G_ix2 (M X : (⟨2, ![100000, 128]⟩ : Shape).Idx → EReal) (Wl Wr : (⟨2, ![64, 128]⟩ : Shape).Idx → EReal)
    (b : (⟨1, ![64]⟩ : Shape).Idx → EReal) (r : Fin 100000) (c : Fin 64) :
    G M X Wl Wr b (ix2 r c) = logSoftmaxRow (logits M X Wl Wr b r) c := rfl

/-- −∞ is neutral for the maximum. -/
theorem max_negInf (y : EReal) : max (Ideal.ofBits .f32 0xFF800000#32) y = y := by
  simp [Ideal.ofBits, Ideal.ieee]

end Cert.Spec

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.KernelPayload.lean ====
/-
  The kernel body's stored value, read at the extended reals at row p and column q of its 5000 × 64 block: the
  log-softmax at q of the row of logits the two products and the bias give for row p.
-/
import proofs.«133941_j79319456023391_1_alg».proof.Proof.Gen.KernelIdeal.Skeleton
import proofs.«133941_j79319456023391_1_alg».proof.Proof.Spec
import proofs.«133941_j79319456023391_1_alg».proof.Proof.LibOuterDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## A column with a unit axis -/

/-- A length-a vector given a trailing unit axis reads, at (p, u), the vector at p: both sit at row-major position p. -/
private theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) := by
  refine shapeCast_apply v h (ix2 p u) (ix1 p) ?_
  rw [Shape.rowMajor_val_one, Shape.rowMajor_val_two]
  show p.val = p.val * 1 + u.val
  have := u.isLt
  omega

/-- An [a, 1] column broadcast to [a, b] reads, at (p, c), the column at row p. -/
private theorem broadcastTo_a1_ab_apply {α : Type} {a b : ℕ} (w : (⟨2, ![a, 1]⟩ : Shape).Idx → α)
    (h : (⟨2, ![a, 1]⟩ : Shape).Broadcasts ⟨2, ![a, b]⟩) (p : Fin a) (c : Fin b) :
    broadcastTo ⟨2, ![a, b]⟩ w h (ix2 p c) = w (ix2 p (0 : Fin 1)) := by
  refine broadcastTo_apply w h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- The reduced index p with column k put back is (p, k). -/
private theorem lift_ix2 {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The maximum along each row from −∞, at row p, is the row's maximum as the specification folds it. -/
private theorem rowMax_apply {m : ℕ} (w : FVec Ideal ⟨2, ![m, 64]⟩ .f32)
    (h : (⟨2, ![m, 64]⟩ : Shape).Reduces [1] (⟨1, ![m]⟩ : Shape)) (hφ : FKind.Formats .f32)
    (hacc : (0xFF800000#32 : BitVec (FTy.bits .f32)) = FKind.maximumf.neutral .f32 hφ) (p : Fin m) :
    multiReduction (F := Ideal) .maximumf [1] ⟨1, ![m]⟩ w 0xFF800000#32 h hφ hacc (ix1 p)
      = Cert.Spec.rowMax fun c => w (ix2 p c) := by
  refine (Ideal.multiReduction_maximumf_single w _ h hφ hacc (ix1 p)).trans ?_
  have e : w ∘ h.lift (ix1 p) = fun c : Fin 64 => w (ix2 p c) :=
    funext fun k => congrArg w (lift_ix2 h p k)
  rw [e]
  rfl

/-- The sum along each row, at row p, is the sum of the row's 64 entries. -/
private theorem rowSum_apply {m : ℕ} (w : FVec Ideal ⟨2, ![m, 64]⟩ .f32)
    (h : (⟨2, ![m, 64]⟩ : Shape).Reduces [1] (⟨1, ![m]⟩ : Shape)) (hφ : FKind.Formats .f32)
    (hacc : (0x00000000#32 : BitVec (FTy.bits .f32)) = FKind.add.neutral .f32 hφ) (p : Fin m) :
    multiReduction (F := Ideal) .add [1] ⟨1, ![m]⟩ w 0x00000000#32 h hφ hacc (ix1 p)
      = ∑ c : Fin 64, w (ix2 p c) := by
  refine (Ideal.multiReduction_add_single w _ h hφ hacc (ix1 p)).trans ?_
  exact Finset.sum_congr rfl fun k _ => congrArg w (lift_ix2 h p k)

/-! ## The log-softmax of each row -/

/-- A block less its row maxima, at (p, c): the entry less the maximum of row p. -/
private theorem shifted_apply {m : ℕ} (w : FVec Ideal ⟨2, ![m, 64]⟩ .f32)
    (hR : (⟨2, ![m, 64]⟩ : Shape).Reduces [1] (⟨1, ![m]⟩ : Shape))
    (hC : (⟨1, ![m]⟩ : Shape).ShapeCasts ⟨2, ![m, 1]⟩)
    (hB : (⟨2, ![m, 1]⟩ : Shape).Broadcasts ⟨2, ![m, 64]⟩)
    (hφ : FKind.Formats .f32)
    (hmax : (0xFF800000#32 : BitVec (FTy.bits .f32)) = FKind.maximumf.neutral .f32 hφ)
    (p : Fin m) (c : Fin 64) :
    subf w (broadcastTo ⟨2, ![m, 64]⟩ (shapeCast ⟨2, ![m, 1]⟩
        (multiReduction (F := Ideal) .maximumf [1] ⟨1, ![m]⟩ w 0xFF800000#32 hR hφ hmax) hC) hB) (ix2 p c)
      = w (ix2 p c) - Cert.Spec.rowMax fun k => w (ix2 p k) := by
  rw [subf_apply, broadcastTo_a1_ab_apply, shapeCast_a_a1_apply, rowMax_apply]

/-- The whole tail of the body over any block w of 64-wide rows, at (p, q): the log-softmax at q of row p of w. -/
private theorem logSoftmax_apply {m : ℕ} (w : FVec Ideal ⟨2, ![m, 64]⟩ .f32)
    (hR : (⟨2, ![m, 64]⟩ : Shape).Reduces [1] (⟨1, ![m]⟩ : Shape))
    (hC : (⟨1, ![m]⟩ : Shape).ShapeCasts ⟨2, ![m, 1]⟩)
    (hB : (⟨2, ![m, 1]⟩ : Shape).Broadcasts ⟨2, ![m, 64]⟩)
    (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (p : Fin m) (q : Fin 64) :
    subf
        (subf w (broadcastTo ⟨2, ![m, 64]⟩ (shapeCast ⟨2, ![m, 1]⟩
          (multiReduction (F := Ideal) .maximumf [1] ⟨1, ![m]⟩ w 0xFF800000#32 hR hφ hmax) hC) hB))
        (broadcastTo ⟨2, ![m, 64]⟩ (log (shapeCast ⟨2, ![m, 1]⟩
          (multiReduction (F := Ideal) .add [1] ⟨1, ![m]⟩
            (exp (subf w (broadcastTo ⟨2, ![m, 64]⟩ (shapeCast ⟨2, ![m, 1]⟩
              (multiReduction (F := Ideal) .maximumf [1] ⟨1, ![m]⟩ w 0xFF800000#32 hR hφ hmax) hC) hB)))
            0x00000000#32 hR hφ hadd) hC)) hB)
        (ix2 p q)
      = Cert.Spec.logSoftmaxRow (fun c => w (ix2 p c)) q := by
  rw [subf_apply, shifted_apply, broadcastTo_a1_ab_apply]
  show _ - Ideal.log (shapeCast ⟨2, ![m, 1]⟩ _ hC (ix2 p (0 : Fin 1))) = _
  rw [shapeCast_a_a1_apply, rowSum_apply]
  unfold Cert.Spec.logSoftmaxRow
  congr 2
  refine Finset.sum_congr rfl fun k _ => ?_
  show Ideal.exp (subf w _ (ix2 p k)) = _
  rw [shifted_apply]

/-! ## The body's stored value -/

theorem pay_apply (x0 x1 : Vec Ideal S5000x128 .f32) (x2 x3 : Vec Ideal S128x64 .f32) (x4 : Vec Ideal S1x64 .f32)
    (p : Fin 5000) (q : Fin 64) :
    k0_pay1 (F := Ideal) x0 x1 x2 x3 x4 (ix2 p q)
      = Cert.Spec.logSoftmaxRow
          (fun c => (∑ k : Fin 128, x0 (ix2 p k) * x2 (ix2 k c)) + (∑ k : Fin 128, x1 (ix2 p k) * x3 (ix2 k c))
            + x4 (ix2 (0 : Fin 1) c)) q := by
  unfold k0_pay1
  refine (logSoftmax_apply _ reduces_S5000x64_S5000 shapeCasts_S5000_S5000x1 broadcasts_S5000x1_S5000x64 _ _ _ p q).trans ?_
  congr 1
  funext c
  refine congrArg₂ (· + ·) (congrArg₂ (· + ·) ?_ ?_) ?_
  · refine (Cert.LibOuterDot.matmul_zero_ix2 dot_S5000x128_S128x64_S5000x64_1_0_0_1_n_n rfl rfl rfl rfl rfl rfl rfl rfl
      none _ _ p c).trans ?_
    refine Finset.sum_congr rfl fun k _ => ?_
    rw [truncf_apply, truncf_apply, shapeCast_self, shapeCast_self]
  · refine (Cert.LibOuterDot.matmul_zero_ix2 dot_S5000x128_S128x64_S5000x64_1_0_0_1_n_n rfl rfl rfl rfl rfl rfl rfl rfl
      none _ _ p c).trans ?_
    refine Finset.sum_congr rfl fun k _ => ?_
    rw [truncf_apply, truncf_apply, shapeCast_self]
  · refine (broadcastTo_1b_ab_apply _ broadcasts_S1x64_S5000x64 p c).trans ?_
    rw [shapeCast_self]

end Cert.KernelIdeal.Payload

end
-- ==== Proof.KernelBlocks.lean ====
/-
  From blocks to the array. The grid has 20 points; point t stages rows 5000·t … 5000·t + 4999 of the neighbour means
  and of the features, the two transposed weight matrices and the bias row whole, and writes back rows
  5000·t … 5000·t + 4999 of the result. Row p of what point t writes back is the specification's row 5000·t + p, so the
  twenty blocks, which tile the result array, leave it holding the specification.
-/
import proofs.«133941_j79319456023391_1_alg».proof.Proof.Gen.KernelIdeal.Value
import proofs.«133941_j79319456023391_1_alg».proof.Proof.KernelTerm
import proofs.«133941_j79319456023391_1_alg».proof.Proof.KernelPayload
import proofs.«133941_j79319456023391_1_alg».proof.Proof.Spec
import Idealize.ShloMosaic.Lib.Pipeline.Value
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array: the specification of the neighbour means, the features, the weights and the bias as launched. -/
def result (c : Dev nD) : S100000x64.Idx → EReal :=
  Cert.Spec.G (KerTerm.meanK (F := Ideal) (m ((c : Thread nD τ).loc main_arg0)) (m ((c : Thread nD τ).loc main_arg1)))
    (m ((c : Thread nD τ).loc main_arg0)) (m ((c : Thread nD τ).loc main_arg2)) (m ((c : Thread nD τ).loc main_arg4)) (m ((c : Thread nD τ).loc main_arg3))

theorem hz : (![0, 0] : Fin 2 → Nat) = fun _ => 0 := funext fun a => by fin_cases a <;> rfl

/-- The block indices over the grid: the two row-tiled inputs and the output sit at block row t, the three whole
    inputs at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := by
  have h := t.isLt
  have hN : cfg0.N = 20 := N_0
  omega

/-- The array row that row p of point t's blocks is. -/
def rowOf (t : Fin cfg0.N) (p : Fin 5000) : Fin 100000 :=
  ⟨t.val * 5000 + p.val, by have := point_lt t; have := p.isLt; omega⟩

/-- The five input blocks at point t, at their literal types. -/
abbrev blkM (c : Dev nD) (t : Fin cfg0.N) : Vec Ideal S5000x128 .f32 := iblk m c 0 t
abbrev blkX (c : Dev nD) (t : Fin cfg0.N) : Vec Ideal S5000x128 .f32 := iblk m c 1 t
abbrev blkWl (c : Dev nD) (t : Fin cfg0.N) : Vec Ideal S128x64 .f32 := iblk m c 2 t
abbrev blkWr (c : Dev nD) (t : Fin cfg0.N) : Vec Ideal S128x64 .f32 := iblk m c 3 t
abbrev blkB (c : Dev nD) (t : Fin cfg0.N) : Vec Ideal S1x64 .f32 := iblk m c 4 t

/-! Reading a block of ANY array through a window: entry (p, k) of point t's block is the array's entry at the
    block's offset plus (p, k). -/

theorem read_win0 (A : FVec Ideal S100000x128 .f32) (t : Fin cfg0.N) (p : Fin 5000) (k : Fin 128) :
    ((cfg0.win 0).blk t).view.read (Elt Ideal) A (ix2 p k) = A (ix2 (rowOf t p) k) := by
  obtain ⟨e0, e1, -⟩ := idx_facts t
  rw [View.read_apply]
  show A _ = A _
  refine congrArg A (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem read_win1 (A : FVec Ideal S100000x128 .f32) (t : Fin cfg0.N) (p : Fin 5000) (k : Fin 128) :
    ((cfg0.win 1).blk t).view.read (Elt Ideal) A (ix2 p k) = A (ix2 (rowOf t p) k) := by
  obtain ⟨-, -, e0, e1, -⟩ := idx_facts t
  rw [View.read_apply]
  show A _ = A _
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

theorem read_win2 (A : FVec Ideal S128x64 .f32) (t : Fin cfg0.N) (k : Fin 128) (q : Fin 64) :
    ((cfg0.win 2).blk t).view.read (Elt Ideal) A (ix2 k q) = A (ix2 k q) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 64 + 1 * q.val = q.val; rw [e1]; omega

theorem read_win3 (A : FVec Ideal S128x64 .f32) (t : Fin cfg0.N) (k : Fin 128) (q : Fin 64) :
    ((cfg0.win 3).blk t).view.read (Elt Ideal) A (ix2 k q) = A (ix2 k q) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 64 + 1 * q.val = q.val; rw [e1]; omega

theorem read_win4 (A : FVec Ideal S1x64 .f32) (t : Fin cfg0.N) (q : Fin 64) :
    ((cfg0.win 4).blk t).view.read (Elt Ideal) A (ix2 (0 : Fin 1) q) = A (ix2 (0 : Fin 1) q) := by
  obtain ⟨-, -, -, -, -, -, -, -, e0, e1, -⟩ := idx_facts t
  rw [View.read_apply]
  show A _ = A _
  refine congrArg A (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

/-- Row p of the block of neighbour means at point t is row 5000·t + p of the means. -/
theorem blkM_val (c : Dev nD) (t : Fin cfg0.N) (p : Fin 5000) (k : Fin 128) :
    blkM m c t (ix2 p k)
      = KerTerm.meanK (F := Ideal) (m ((c : Thread nD τ).loc main_arg0)) (m ((c : Thread nD τ).loc main_arg1)) (ix2 (rowOf t p) k) := by
  unfold blkM iblk
  refine (read_win0 _ t p k).trans ?_
  exact congrFun (KerTerm.V_mean m c) _

/-- Row p of the block of features at point t is row 5000·t + p of the features. -/
theorem blkX_val (c : Dev nD) (t : Fin cfg0.N) (p : Fin 5000) (k : Fin 128) :
    blkX m c t (ix2 p k) = ((m ((c : Thread nD τ).loc main_arg0)) : FVec Ideal S100000x128 .f32) (ix2 (rowOf t p) k) := by
  unfold blkX iblk
  refine (read_win1 _ t p k).trans ?_
  exact congrFun (V_main_arg0 m c) _

/-- The first weight block, whole at every point, is the first weight matrix transposed. -/
theorem blkWl_val (c : Dev nD) (t : Fin cfg0.N) (k : Fin 128) (q : Fin 64) :
    blkWl m c t (ix2 k q) = ((m ((c : Thread nD τ).loc main_arg2)) : FVec Ideal S64x128 .f32) (ix2 q k) := by
  unfold blkWl iblk
  refine (read_win2 _ t k q).trans ?_
  refine (congrFun (KerTerm.V_wlT m c) _).trans ?_
  exact transpose_ix2_apply ((m ((c : Thread nD τ).loc main_arg2)) : FVec Ideal S64x128 .f32) transposes_S64x128_S128x64_1_0 k q

/-- The second weight block likewise. -/
theorem blkWr_val (c : Dev nD) (t : Fin cfg0.N) (k : Fin 128) (q : Fin 64) :
    blkWr m c t (ix2 k q) = ((m ((c : Thread nD τ).loc main_arg4)) : FVec Ideal S64x128 .f32) (ix2 q k) := by
  unfold blkWr iblk
  refine (read_win3 _ t k q).trans ?_
  refine (congrFun (KerTerm.V_wrT m c) _).trans ?_
  exact transpose_ix2_apply ((m ((c : Thread nD τ).loc main_arg4)) : FVec Ideal S64x128 .f32) transposes_S64x128_S128x64_1_0 k q

/-- The bias block, whole at every point, is the bias as one row. -/
theorem blkB_val (c : Dev nD) (t : Fin cfg0.N) (q : Fin 64) :
    blkB m c t (ix2 (0 : Fin 1) q) = ((m ((c : Thread nD τ).loc main_arg3)) : FVec Ideal S64 .f32) (ix1 q) := by
  unfold blkB iblk
  refine (read_win4 _ t q).trans ?_
  refine (congrFun (KerTerm.V_bias m c) _).trans ?_
  exact shapeCast_a_1a_apply ((m ((c : Thread nD τ).loc main_arg3)) : FVec Ideal S64 .f32) shapeCasts_S64_S1x64 (0 : Fin 1) q

/-- Entry (p, q) of the output block at point t is entry (5000·t + p, q) of the array. -/
theorem emb_out (t : Fin cfg0.N) (p : Fin 5000) (q : Fin 64) :
    ((cfg0.win 5).blk t).view.emb (ix2 p q) = (ix2 (rowOf t p) q : S100000x64.Idx) := by
  obtain ⟨-, -, -, -, -, -, -, -, -, -, e0, e1⟩ := idx_facts t
  funext a; apply Fin.ext
  match a with
  | ⟨0, _⟩ => show win0_5.index t (0 : Fin 2) * 5000 + 1 * p.val = t.val * 5000 + p.val; rw [e0]; omega
  | ⟨1, _⟩ => show win0_5.index t (1 : Fin 2) * 64 + 1 * q.val = q.val; rw [e1]; omega

/-- What a point's write-back takes of a whole output block is the block itself. -/
theorem cut_out (X : Vec Ideal S5000x64 .f32) (t : Fin cfg0.N) (p : Fin 5000) (q : Fin 64) :
    (cfg0.win 5).cut (grid0.coords t) X (ix2 p q) = X (ix2 p q) :=
  congrArg X (funext fun a => Fin.ext (by match a with | ⟨0, _⟩ => rfl | ⟨1, _⟩ => rfl))

/-- Entry (p, q) of point t's block of ANY result array is the array's entry (5000·t + p, q). -/
theorem read_out (A : FVec Ideal S100000x64 .f32) (t : Fin cfg0.N) (p : Fin 5000) (q : Fin 64) :
    ((cfg0.win 5).blk t).view.read (Elt Ideal) A (ix2 p q) = A (ix2 (rowOf t p) q) := by
  rw [View.read_apply]
  show A _ = A _
  exact congrArg A (emb_out t p q)

/-- What point t writes back is block t of the result array. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  refine (cut_out _ t p q).trans ?_
  refine Eq.trans ?_ (read_out (result m c) t p q).symm
  refine (Payload.pay_apply (blkM m c t) (blkX m c t) (blkWl m c t) (blkWr m c t) (blkB m c t) p q).trans ?_
  unfold result
  rw [Cert.Spec.G_ix2]
  refine congrArg (fun z => Cert.Spec.logSoftmaxRow z q) (funext fun c' => ?_)
  unfold Cert.Spec.logits
  simp only [blkM_val, blkX_val, blkWl_val, blkWr_val, blkB_val]

/-- An index of the array is in point t's output block iff each coordinate is in the block's range. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v20).slice (win0_5.rect t)).set ↔ _
  rw [View.set_slice_whole, Rect.mem_set_unit]
  exact Iff.rfl

/-- Every index of the array is in the output block of the point its row divided by 5000 names. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by have hN : cfg0.N = 20 := N_0; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

/-- The result array after the run is the specification. -/
theorem final (c : Dev nD) : (dats m 0 c).arrAt 5 cfg0.N = result m c :=
  (dats m 0 c).arrAt_eq_of_cover 5 (result m c) (fun t _ => flushed_eq m c t) (cover)

/-- The kernel program's run: the result buffer ends at the specification, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.RefTerm.lean ====
/-
  The reference program's result as named pure terms of its five arguments, for any float values.

  `meanR x e`: row r is the sum of x's rows over the edges (s, r) of e, divided by the larger of r's in-degree and 1.
  The edge list's first row holds the sources s, its second the targets r; a negative source counts from the end, and
  a source still outside the array contributes a row of the fill value; a target outside the array receives nothing.
  `logitsR M x wl b wr`: M against wl transposed, plus the bias, plus x against wr transposed.
  `lsmR z`: the log-softmax of each row of z.
-/
import proofs.«133941_j79319456023391_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The sources (row 0 of the edge list) and the targets (row 1). -/
def srcR (e : IVec S2x1600000 32) : IVec S1600000 32 :=
  shapeCast S1600000 (extractStridedSlice S1x1600000 ![0, 0] e slices_S2x1600000_S1x1600000_0_0) shapeCasts_S1x1600000_S1600000
def dstR (e : IVec S2x1600000 32) : IVec S1600000 32 :=
  shapeCast S1600000 (extractStridedSlice S1x1600000 ![1, 0] e slices_S2x1600000_S1x1600000_1_0) shapeCasts_S1x1600000_S1600000

/-- The sources with a negative one counted from the end, as a column. -/
def colR (e : IVec S2x1600000 32) : IVec S1600000x1 32 :=
  broadcastInDim S1600000x1 ![0] bcast_S1600000_S1600000x1_0
    (select (cmpi .slt (srcR e) (broadcastInDim S1600000 ![] bcast_S_S1600000 (constantI S_ 32 0#32)))
      (addi (srcR e) (broadcastInDim S1600000 ![] bcast_S_S1600000 (constantI S_ 32 100000#32))) (srcR e))

/-- The gathered rows: x's row at each source, the fill value where the source is outside [0, 99999]. -/
def msgR (x : FVec F S100000x128 .f32) (e : IVec S2x1600000 32) : FVec F S1600000x128 .f32 :=
  select
    (broadcastInDim S1600000x128 ![0] bcast_S1600000_S1600000x128_0
      (Host.reduce IntOp.andi
        (andi (cmpi .sge (colR e) (broadcastInDim S1600000x1 ![] bcast_S_S1600000x1 (constantI S_ 32 0#32)))
          (cmpi .sle (colR e) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 x (colR e))
    (broadcastInDim S1600000x128 ![] bcast_S_S1600000x128 (constant S_ .f32 0x7FC00000#32))

/-- The neighbour means. -/
def meanR (x : FVec F S100000x128 .f32) (e : IVec S2x1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dstR e)) (msgR x e))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 (dstR e))
            (broadcastInDim S1600000 ![] bcast_S_S1600000 (constant S_ .f32 0x3F800000#32)))
          (broadcastInDim S100000 ![] bcast_S_S100000 (constant S_ .f32 0x3F800000#32)))))

/-- The logits: (M · wlᵀ + b) + x · wrᵀ. -/
def logitsR (M x : FVec F S100000x128 .f32) (wl : FVec F S64x128 .f32) (b : FVec F S64 .f32) (wr : FVec F S64x128 .f32) :
    FVec F S100000x64 .f32 :=
  addf
    (addf
      (Host.dotGeneral dot_S100000x128_S128x64_S100000x64_1_0_0_1_n_n none M (transpose S128x64 [1, 0] wl transposes_S64x128_S128x64_1_0))
      (broadcastInDim S100000x64 ![0, 1] bcast_S1x64_S100000x64_0_1 (broadcastInDim S1x64 ![1] bcast_S64_S1x64_1 b)))
    (Host.dotGeneral dot_S100000x128_S128x64_S100000x64_1_0_0_1_n_n none x (transpose S128x64 [1, 0] wr transposes_S64x128_S128x64_1_0))

/-- Each row less its maximum (the maximum taken from −∞, and once more against −∞). -/
def shiftedR (z : FVec F S100000x64 .f32) : FVec F S100000x64 .f32 :=
  subf z
    (broadcastInDim S100000x64 ![0, 1] bcast_S100000x1_S100000x64_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x64_S100000_d1 h_S_))))

/-- The log-softmax of each row. -/
def lsmR (z : FVec F S100000x64 .f32) : FVec F S100000x64 .f32 :=
  subf (shiftedR z)
    (broadcastInDim S100000x64 ![0, 1] bcast_S100000x1_S100000x64_0_1
      (Host.log (broadcastInDim S100000x1 ![0] bcast_S100000_S100000x1_0
        (Host.reduceAdd (Host.exp (shiftedR z)) (constant S_ .f32 0x00000000#32) reducesTo_S100000x64_S100000_d1 h_S_))))

end Cert.ReferenceIdeal.RefTerm

end
-- ==== Proof.RefRun.lean ====
/-
  The reference program's run: every weakly fair execution of its @main terminates, the result buffer holding the
  log-softmax of the logits of the neighbour means, the arguments unchanged.
-/
import proofs.«133941_j79319456023391_1_alg».proof.Proof.Gen.ReferenceIdeal
import proofs.«133941_j79319456023391_1_alg».proof.Proof.RefTerm
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The gathered rows from the column of sources: x's row at each entry, the fill value where the entry is outside [0, 99999]. -/
private def msgCore (x : FVec F S100000x128 .f32) (k : IVec S1600000x1 32) : FVec F S1600000x128 .f32 :=
  select
    (broadcastInDim S1600000x128 ![0] bcast_S1600000_S1600000x128_0
      (Host.reduce IntOp.andi
        (andi (cmpi .sge k (broadcastInDim S1600000x1 ![] bcast_S_S1600000x1 (constantI S_ 32 0#32)))
          (cmpi .sle k (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 x k)
    (broadcastInDim S1600000x128 ![] bcast_S_S1600000x128 (constant S_ .f32 0x7FC00000#32))

private theorem msgR_eq (x : FVec F S100000x128 .f32) (e : IVec S2x1600000 32) :
    RefTerm.msgR x e = msgCore x (RefTerm.colR e) := rfl

/-- The means from the targets and the gathered rows: the rows summed at their targets, over the larger of the count and 1. -/
private def meanCore (d : IVec S1600000 32) (g : FVec F S1600000x128 .f32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d) g)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

private theorem meanR_eq (x : FVec F S100000x128 .f32) (e : IVec S2x1600000 32) :
    RefTerm.meanR x e = meanCore (RefTerm.dstR e) (RefTerm.msgR x e) := rfl

/-- The 66 operations of @main with its three functions inlined, in order: a function's line is the same operation
    over the call's own buffers, its arguments the call's operands. -/
private abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_call0_c (constantI S_ 32 0#32 : (⟨S_, .i32⟩ : BufTy).Contents (Elt F)),
    unary main_call0_c main_call0_v0 (broadcastInDim S1600000 ![] bcast_S_S1600000 : (⟨S_, .i32⟩ : BufTy).Contents (Elt F) → (⟨S1600000, .i32⟩ : BufTy).Contents (Elt F)),
    binary main_v1 main_call0_v0 main_call0_v1 (cmpi .slt : (⟨S1600000, .i32⟩ : BufTy).Contents (Elt F) → (⟨S1600000, .i32⟩ : BufTy).Contents (Elt F) → (⟨S1600000, .i1⟩ : BufTy).Contents (Elt F)),
    nullary main_call0_c_0 (constantI S_ 32 100000#32 : (⟨S_, .i32⟩ : BufTy).Contents (Elt F)),
    unary main_call0_c_0 main_call0_v2 (broadcastInDim S1600000 ![] bcast_S_S1600000 : (⟨S_, .i32⟩ : BufTy).Contents (Elt F) → (⟨S1600000, .i32⟩ : BufTy).Contents (Elt F)),
    binary main_v1 main_call0_v2 main_call0_v3 (addi : (⟨S1600000, .i32⟩ : BufTy).Contents (Elt F) → (⟨S1600000, .i32⟩ : BufTy).Contents (Elt F) → (⟨S1600000, .i32⟩ : BufTy).Contents (Elt F)),
    ternary main_call0_v1 main_call0_v3 main_v1 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_call0_v4 main_call0_v5 (broadcastInDim S1600000x1 ![0] bcast_S1600000_S1600000x1_0 : (⟨S1600000, .i32⟩ : BufTy).Contents (Elt F) → (⟨S1600000x1, .i32⟩ : BufTy).Contents (Elt F)),
    nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S1600000x1 ![] bcast_S_S1600000x1 : (⟨S_, .i32⟩ : BufTy).Contents (Elt F) → (⟨S1600000x1, .i32⟩ : BufTy).Contents (Elt F)),
    binary main_call0_v5 main_call0_v6 main_call0_v7 (cmpi .sge : (⟨S1600000x1, .i32⟩ : BufTy).Contents (Elt F) → (⟨S1600000x1, .i32⟩ : BufTy).Contents (Elt F) → (⟨S1600000x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S1600000x1 ![0, 1] bcast_S1x1_S1600000x1_0_1 : (⟨S1x1, .i32⟩ : BufTy).Contents (Elt F) → (⟨S1600000x1, .i32⟩ : BufTy).Contents (Elt F)),
    binary main_call0_v5 main_call0_v9 main_call0_v10 (cmpi .sle : (⟨S1600000x1, .i32⟩ : BufTy).Contents (Elt F) → (⟨S1600000x1, .i32⟩ : BufTy).Contents (Elt F) → (⟨S1600000x1, .i1⟩ : BufTy).Contents (Elt F)),
    binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S1600000x1_S1600000_d1 h_S_ : (⟨S1600000x1, .i1⟩ : BufTy).Contents (Elt F) → (⟨S_, .i1⟩ : BufTy).Contents (Elt F) → (⟨S1600000, .i1⟩ : BufTy).Contents (Elt F)),
    binary main_arg0 main_call0_v5 main_call0_v13 (fun x i => Host.gather gather_S100000x128_S1600000x1_S1600000x128_1_0_n_n_0_1_1128 x i : (⟨S100000x128, .f32⟩ : BufTy).Contents (Elt F) → (⟨S1600000x1, .i32⟩ : BufTy).Contents (Elt F) → (⟨S1600000x128, .f32⟩ : BufTy).Contents (Elt F)),
    unary main_call0_v12 main_call0_v14 (broadcastInDim S1600000x128 ![0] bcast_S1600000_S1600000x128_0 : (⟨S1600000, .i1⟩ : BufTy).Contents (Elt F) → (⟨S1600000x128, .i1⟩ : BufTy).Contents (Elt F)),
    nullary main_call0_cst (constant S_ .f32 0x7FC00000#32 : (⟨S_, .f32⟩ : BufTy).Contents (Elt F)),
    unary main_call0_cst main_call0_v15 (broadcastInDim S1600000x128 ![] bcast_S_S1600000x128 : (⟨S_, .f32⟩ : BufTy).Contents (Elt F) → (⟨S1600000x128, .f32⟩ : BufTy).Contents (Elt F)),
    ternary main_call0_v14 main_call0_v13 main_call0_v15 main_v4 (select : (⟨S1600000x128, .i1⟩ : BufTy).Contents (Elt F) → (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v5 (broadcastInDim S100000x128 ![] bcast_S_S100000x128 : (⟨S_, .f32⟩ : BufTy).Contents (Elt F) → (⟨S100000x128, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_0 (constant S_ .f32 0x3F800000#32),
    unary main_cst_0 main_v8 (broadcastInDim S1600000 ![] bcast_S_S1600000 : (⟨S_, .f32⟩ : BufTy).Contents (Elt F) → (⟨S1600000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    unary main_v3 main_v10 (broadcastInDim S1600000x1 ![0] bcast_S1600000_S1600000x1_0 : (⟨S1600000, .i32⟩ : BufTy).Contents (Elt F) → (⟨S1600000x1, .i32⟩ : BufTy).Contents (Elt F)),
    ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v12 (broadcastInDim S100000 ![] bcast_S_S100000 : (⟨S_, .f32⟩ : BufTy).Contents (Elt F) → (⟨S100000, .f32⟩ : BufTy).Contents (Elt F)),
    binary main_v11 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (broadcastInDim S100000x1 ![0] bcast_S100000_S100000x1_0 : (⟨S100000, .f32⟩ : BufTy).Contents (Elt F) → (⟨S100000x1, .f32⟩ : BufTy).Contents (Elt F)),
    unary main_v14 main_v15 (broadcastInDim S100000x128 ![0, 1] bcast_S100000x1_S100000x128_0_1 : (⟨S100000x1, .f32⟩ : BufTy).Contents (Elt F) → (⟨S100000x128, .f32⟩ : BufTy).Contents (Elt F)),
    binary main_v7 main_v15 main_v16 (Host.divf : (⟨S100000x128, .f32⟩ : BufTy).Contents (Elt F) → (⟨S100000x128, .f32⟩ : BufTy).Contents (Elt F) → (⟨S100000x128, .f32⟩ : BufTy).Contents (Elt F)),
    unary main_arg2 main_v17 ((transpose S128x64 [1, 0] · transposes_S64x128_S128x64_1_0) : (⟨S64x128, .f32⟩ : BufTy).Contents (Elt F) → (⟨S128x64, .f32⟩ : BufTy).Contents (Elt F)),
    binary main_v16 main_v17 main_v18 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v19 (broadcastInDim S1x64 ![1] bcast_S64_S1x64_1 : (⟨S64, .f32⟩ : BufTy).Contents (Elt F) → (⟨S1x64, .f32⟩ : BufTy).Contents (Elt F)),
    unary main_v19 main_v20 (broadcastInDim S100000x64 ![0, 1] bcast_S1x64_S100000x64_0_1 : (⟨S1x64, .f32⟩ : BufTy).Contents (Elt F) → (⟨S100000x64, .f32⟩ : BufTy).Contents (Elt F)),
    binary main_v18 main_v20 main_v21 (addf : (⟨S100000x64, .f32⟩ : BufTy).Contents (Elt F) → (⟨S100000x64, .f32⟩ : BufTy).Contents (Elt F) → (⟨S100000x64, .f32⟩ : BufTy).Contents (Elt F)),
    unary main_arg4 main_v22 ((transpose S128x64 [1, 0] · transposes_S64x128_S128x64_1_0) : (⟨S64x128, .f32⟩ : BufTy).Contents (Elt F) → (⟨S128x64, .f32⟩ : BufTy).Contents (Elt F)),
    binary main_arg0 main_v22 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v21 main_v23 main_v24 (addf : (⟨S100000x64, .f32⟩ : BufTy).Contents (Elt F) → (⟨S100000x64, .f32⟩ : BufTy).Contents (Elt F) → (⟨S100000x64, .f32⟩ : BufTy).Contents (Elt F)),
    nullary main_call1_cst (constant S_ .f32 0xFF800000#32 : (⟨S_, .f32⟩ : BufTy).Contents (Elt F)),
    binary main_v24 main_call1_cst main_call1_v0 (fun x v => Host.reduce FloatOps.maximumf x v reducesTo_S100000x64_S100000_d1 h_S_ : (⟨S100000x64, .f32⟩ : BufTy).Contents (Elt F) → (⟨S_, .f32⟩ : BufTy).Contents (Elt F) → (⟨S100000, .f32⟩ : BufTy).Contents (Elt F)),
    nullary main_call1_cst_0 (constant S_ .f32 0xFF800000#32 : (⟨S_, .f32⟩ : BufTy).Contents (Elt F)),
    unary main_call1_cst_0 main_call1_v1 (broadcastInDim S100000 ![] bcast_S_S100000 : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 (broadcastInDim S100000x1 ![0] bcast_S100000_S100000x1_0 : (⟨S100000, .f32⟩ : BufTy).Contents (Elt F) → (⟨S100000x1, .f32⟩ : BufTy).Contents (Elt F)),
    unary main_call1_v3 main_call1_v4 (broadcastInDim S100000x64 ![0, 1] bcast_S100000x1_S100000x64_0_1 : (⟨S100000x1, .f32⟩ : BufTy).Contents (Elt F) → (⟨S100000x64, .f32⟩ : BufTy).Contents (Elt F)),
    binary main_v24 main_call1_v4 main_call1_v5 (subf : (⟨S100000x64, .f32⟩ : BufTy).Contents (Elt F) → (⟨S100000x64, .f32⟩ : BufTy).Contents (Elt F) → (⟨S100000x64, .f32⟩ : BufTy).Contents (Elt F)),
    unary main_call1_v5 main_call1_v6 (Host.exp : (⟨S100000x64, .f32⟩ : BufTy).Contents (Elt F) → (⟨S100000x64, .f32⟩ : BufTy).Contents (Elt F)),
    nullary main_call1_cst_1 (constant S_ .f32 0x00000000#32 : (⟨S_, .f32⟩ : BufTy).Contents (Elt F)),
    binary main_call1_v6 main_call1_cst_1 main_call1_v7 (fun x v => Host.reduceAdd x v reducesTo_S100000x64_S100000_d1 h_S_ : (⟨S100000x64, .f32⟩ : BufTy).Contents (Elt F) → (⟨S_, .f32⟩ : BufTy).Contents (Elt F) → (⟨S100000, .f32⟩ : BufTy).Contents (Elt F)),
    unary main_call1_v7 main_call1_v8 (broadcastInDim S100000x1 ![0] bcast_S100000_S100000x1_0 : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 (broadcastInDim S100000x64 ![0, 1] bcast_S100000x1_S100000x64_0_1 : (⟨S100000x1, .f32⟩ : BufTy).Contents (Elt F) → (⟨S100000x64, .f32⟩ : BufTy).Contents (Elt F)),
    binary main_call1_v5 main_call1_v10 main_v25 (subf : (⟨S100000x64, .f32⟩ : BufTy).Contents (Elt F) → (⟨S100000x64, .f32⟩ : BufTy).Contents (Elt F) → (⟨S100000x64, .f32⟩ : BufTy).Contents (Elt F)) ]

/-- The same in five stretches: to the column of sources; the gathered rows; the means; the logits; the log-softmax. -/
private abbrev opsA1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_call0_c (constantI S_ 32 0#32 : (⟨S_, .i32⟩ : BufTy).Contents (Elt F)),
    unary main_call0_c main_call0_v0 (broadcastInDim S1600000 ![] bcast_S_S1600000 : (⟨S_, .i32⟩ : BufTy).Contents (Elt F) → (⟨S1600000, .i32⟩ : BufTy).Contents (Elt F)),
    binary main_v1 main_call0_v0 main_call0_v1 (cmpi .slt : (⟨S1600000, .i32⟩ : BufTy).Contents (Elt F) → (⟨S1600000, .i32⟩ : BufTy).Contents (Elt F) → (⟨S1600000, .i1⟩ : BufTy).Contents (Elt F)),
    nullary main_call0_c_0 (constantI S_ 32 100000#32 : (⟨S_, .i32⟩ : BufTy).Contents (Elt F)),
    unary main_call0_c_0 main_call0_v2 (broadcastInDim S1600000 ![] bcast_S_S1600000 : (⟨S_, .i32⟩ : BufTy).Contents (Elt F) → (⟨S1600000, .i32⟩ : BufTy).Contents (Elt F)),
    binary main_v1 main_call0_v2 main_call0_v3 (addi : (⟨S1600000, .i32⟩ : BufTy).Contents (Elt F) → (⟨S1600000, .i32⟩ : BufTy).Contents (Elt F) → (⟨S1600000, .i32⟩ : BufTy).Contents (Elt F)),
    ternary main_call0_v1 main_call0_v3 main_v1 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_call0_v4 main_call0_v5 (broadcastInDim S1600000x1 ![0] bcast_S1600000_S1600000x1_0 : (⟨S1600000, .i32⟩ : BufTy).Contents (Elt F) → (⟨S1600000x1, .i32⟩ : BufTy).Contents (Elt F)) ]
private abbrev opsA2 : List (HloOp τ sig (Elt F)) :=
  [ nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S1600000x1 ![] bcast_S_S1600000x1 : (⟨S_, .i32⟩ : BufTy).Contents (Elt F) → (⟨S1600000x1, .i32⟩ : BufTy).Contents (Elt F)),
    binary main_call0_v5 main_call0_v6 main_call0_v7 (cmpi .sge : (⟨S1600000x1, .i32⟩ : BufTy).Contents (Elt F) → (⟨S1600000x1, .i32⟩ : BufTy).Contents (Elt F) → (⟨S1600000x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S1600000x1 ![0, 1] bcast_S1x1_S1600000x1_0_1 : (⟨S1x1, .i32⟩ : BufTy).Contents (Elt F) → (⟨S1600000x1, .i32⟩ : BufTy).Contents (Elt F)),
    binary main_call0_v5 main_call0_v9 main_call0_v10 (cmpi .sle : (⟨S1600000x1, .i32⟩ : BufTy).Contents (Elt F) → (⟨S1600000x1, .i32⟩ : BufTy).Contents (Elt F) → (⟨S1600000x1, .i1⟩ : BufTy).Contents (Elt F)),
    binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S1600000x1_S1600000_d1 h_S_ : (⟨S1600000x1, .i1⟩ : BufTy).Contents (Elt F) → (⟨S_, .i1⟩ : BufTy).Contents (Elt F) → (⟨S1600000, .i1⟩ : BufTy).Contents (Elt F)),
    binary main_arg0 main_call0_v5 main_call0_v13 (fun x i => Host.gather gather_S100000x128_S1600000x1_S1600000x128_1_0_n_n_0_1_1128 x i : (⟨S100000x128, .f32⟩ : BufTy).Contents (Elt F) → (⟨S1600000x1, .i32⟩ : BufTy).Contents (Elt F) → (⟨S1600000x128, .f32⟩ : BufTy).Contents (Elt F)),
    unary main_call0_v12 main_call0_v14 (broadcastInDim S1600000x128 ![0] bcast_S1600000_S1600000x128_0 : (⟨S1600000, .i1⟩ : BufTy).Contents (Elt F) → (⟨S1600000x128, .i1⟩ : BufTy).Contents (Elt F)),
    nullary main_call0_cst (constant S_ .f32 0x7FC00000#32 : (⟨S_, .f32⟩ : BufTy).Contents (Elt F)),
    unary main_call0_cst main_call0_v15 (broadcastInDim S1600000x128 ![] bcast_S_S1600000x128 : (⟨S_, .f32⟩ : BufTy).Contents (Elt F) → (⟨S1600000x128, .f32⟩ : BufTy).Contents (Elt F)),
    ternary main_call0_v14 main_call0_v13 main_call0_v15 main_v4 (select : (⟨S1600000x128, .i1⟩ : BufTy).Contents (Elt F) → (⟨S1600000x128, .f32⟩ : BufTy).Contents (Elt F) → (⟨S1600000x128, .f32⟩ : BufTy).Contents (Elt F) → (⟨S1600000x128, .f32⟩ : BufTy).Contents (Elt F)) ]
private abbrev opsB1 : List (HloOp τ sig (Elt F)) :=
  [ nullary main_cst (constant S_ .f32 0x00000000#32),
    unary main_cst main_v5 (broadcastInDim S100000x128 ![] bcast_S_S100000x128 : (⟨S_, .f32⟩ : BufTy).Contents (Elt F) → (⟨S100000x128, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_0 (constant S_ .f32 0x3F800000#32),
    unary main_cst_0 main_v8 (broadcastInDim S1600000 ![] bcast_S_S1600000 : (⟨S_, .f32⟩ : BufTy).Contents (Elt F) → (⟨S1600000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    unary main_v3 main_v10 (broadcastInDim S1600000x1 ![0] bcast_S1600000_S1600000x1_0 : (⟨S1600000, .i32⟩ : BufTy).Contents (Elt F) → (⟨S1600000x1, .i32⟩ : BufTy).Contents (Elt F)),
    ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v12 (broadcastInDim S100000 ![] bcast_S_S100000 : (⟨S_, .f32⟩ : BufTy).Contents (Elt F) → (⟨S100000, .f32⟩ : BufTy).Contents (Elt F)),
    binary main_v11 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (broadcastInDim S100000x1 ![0] bcast_S100000_S100000x1_0 : (⟨S100000, .f32⟩ : BufTy).Contents (Elt F) → (⟨S100000x1, .f32⟩ : BufTy).Contents (Elt F)),
    unary main_v14 main_v15 (broadcastInDim S100000x128 ![0, 1] bcast_S100000x1_S100000x128_0_1 : (⟨S100000x1, .f32⟩ : BufTy).Contents (Elt F) → (⟨S100000x128, .f32⟩ : BufTy).Contents (Elt F)),
    binary main_v7 main_v15 main_v16 (Host.divf : (⟨S100000x128, .f32⟩ : BufTy).Contents (Elt F) → (⟨S100000x128, .f32⟩ : BufTy).Contents (Elt F) → (⟨S100000x128, .f32⟩ : BufTy).Contents (Elt F)) ]
private abbrev opsB2 : List (HloOp τ sig (Elt F)) :=
  [ unary main_arg2 main_v17 ((transpose S128x64 [1, 0] · transposes_S64x128_S128x64_1_0) : (⟨S64x128, .f32⟩ : BufTy).Contents (Elt F) → (⟨S128x64, .f32⟩ : BufTy).Contents (Elt F)),
    binary main_v16 main_v17 main_v18 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v19 (broadcastInDim S1x64 ![1] bcast_S64_S1x64_1 : (⟨S64, .f32⟩ : BufTy).Contents (Elt F) → (⟨S1x64, .f32⟩ : BufTy).Contents (Elt F)),
    unary main_v19 main_v20 (broadcastInDim S100000x64 ![0, 1] bcast_S1x64_S100000x64_0_1 : (⟨S1x64, .f32⟩ : BufTy).Contents (Elt F) → (⟨S100000x64, .f32⟩ : BufTy).Contents (Elt F)),
    binary main_v18 main_v20 main_v21 (addf : (⟨S100000x64, .f32⟩ : BufTy).Contents (Elt F) → (⟨S100000x64, .f32⟩ : BufTy).Contents (Elt F) → (⟨S100000x64, .f32⟩ : BufTy).Contents (Elt F)),
    unary main_arg4 main_v22 ((transpose S128x64 [1, 0] · transposes_S64x128_S128x64_1_0) : (⟨S64x128, .f32⟩ : BufTy).Contents (Elt F) → (⟨S128x64, .f32⟩ : BufTy).Contents (Elt F)),
    binary main_arg0 main_v22 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v21 main_v23 main_v24 (addf : (⟨S100000x64, .f32⟩ : BufTy).Contents (Elt F) → (⟨S100000x64, .f32⟩ : BufTy).Contents (Elt F) → (⟨S100000x64, .f32⟩ : BufTy).Contents (Elt F)) ]
private abbrev opsC : List (HloOp τ sig (Elt F)) :=
  [ nullary main_call1_cst (constant S_ .f32 0xFF800000#32 : (⟨S_, .f32⟩ : BufTy).Contents (Elt F)),
    binary main_v24 main_call1_cst main_call1_v0 (fun x v => Host.reduce FloatOps.maximumf x v reducesTo_S100000x64_S100000_d1 h_S_ : (⟨S100000x64, .f32⟩ : BufTy).Contents (Elt F) → (⟨S_, .f32⟩ : BufTy).Contents (Elt F) → (⟨S100000, .f32⟩ : BufTy).Contents (Elt F)),
    nullary main_call1_cst_0 (constant S_ .f32 0xFF800000#32 : (⟨S_, .f32⟩ : BufTy).Contents (Elt F)),
    unary main_call1_cst_0 main_call1_v1 (broadcastInDim S100000 ![] bcast_S_S100000 : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 (broadcastInDim S100000x1 ![0] bcast_S100000_S100000x1_0 : (⟨S100000, .f32⟩ : BufTy).Contents (Elt F) → (⟨S100000x1, .f32⟩ : BufTy).Contents (Elt F)),
    unary main_call1_v3 main_call1_v4 (broadcastInDim S100000x64 ![0, 1] bcast_S100000x1_S100000x64_0_1 : (⟨S100000x1, .f32⟩ : BufTy).Contents (Elt F) → (⟨S100000x64, .f32⟩ : BufTy).Contents (Elt F)),
    binary main_v24 main_call1_v4 main_call1_v5 (subf : (⟨S100000x64, .f32⟩ : BufTy).Contents (Elt F) → (⟨S100000x64, .f32⟩ : BufTy).Contents (Elt F) → (⟨S100000x64, .f32⟩ : BufTy).Contents (Elt F)),
    unary main_call1_v5 main_call1_v6 (Host.exp : (⟨S100000x64, .f32⟩ : BufTy).Contents (Elt F) → (⟨S100000x64, .f32⟩ : BufTy).Contents (Elt F)),
    nullary main_call1_cst_1 (constant S_ .f32 0x00000000#32 : (⟨S_, .f32⟩ : BufTy).Contents (Elt F)),
    binary main_call1_v6 main_call1_cst_1 main_call1_v7 (fun x v => Host.reduceAdd x v reducesTo_S100000x64_S100000_d1 h_S_ : (⟨S100000x64, .f32⟩ : BufTy).Contents (Elt F) → (⟨S_, .f32⟩ : BufTy).Contents (Elt F) → (⟨S100000, .f32⟩ : BufTy).Contents (Elt F)),
    unary main_call1_v7 main_call1_v8 (broadcastInDim S100000x1 ![0] bcast_S100000_S100000x1_0 : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 (broadcastInDim S100000x64 ![0, 1] bcast_S100000x1_S100000x64_0_1 : (⟨S100000x1, .f32⟩ : BufTy).Contents (Elt F) → (⟨S100000x64, .f32⟩ : BufTy).Contents (Elt F)),
    binary main_call1_v5 main_call1_v10 main_v25 (subf : (⟨S100000x64, .f32⟩ : BufTy).Contents (Elt F) → (⟨S100000x64, .f32⟩ : BufTy).Contents (Elt F) → (⟨S100000x64, .f32⟩ : BufTy).Contents (Elt F)) ]

private theorem ops_split : (ops : List (HloOp τ sig (Elt F))) = opsA1 ++ (opsA2 ++ (opsB1 ++ (opsB2 ++ opsC))) := rfl

/-- The fold over two stretches in a row is the fold over the second from the fold over the first. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- @main is that straight line: the functions' bodies unfold at their calls, a typed reference's transport at a
    literal buffer is the identity, and sequencing re-associates, all by computation. -/
private theorem main_eq (c : Dev nD) : main (F := F) c = seq ops := by
  chain_rfl

private theorem scopedRefs_eq : (Finset.univ.filter fun b : Ref sig .tc => b.isScoped) = ∅ := by decide
private theorem scopedSems_eq : (Finset.univ.filter fun sm : SemLoc sig => sm.isScoped .tc) = ∅ := by decide

private theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

private theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every weakly fair execution terminates with each buffer at the operations' fold over the launch contents. -/
private theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-! The arguments are written by no operation. -/
set_option maxHeartbeats 2000000 in
set_option maxRecDepth 8192 in
private theorem ops_main_arg0 (V : Valuation τ sig (Elt F)) :
    after ops V (main_arg0 : DevRef τ sig) = V (main_arg0 : DevRef τ sig) := by
  after_results_simp

set_option maxHeartbeats 2000000 in
set_option maxRecDepth 8192 in
private theorem ops_main_arg1 (V : Valuation τ sig (Elt F)) :
    after ops V (main_arg1 : DevRef τ sig) = V (main_arg1 : DevRef τ sig) := by
  after_results_simp

set_option maxHeartbeats 2000000 in
set_option maxRecDepth 8192 in
private theorem ops_main_arg2 (V : Valuation τ sig (Elt F)) :
    after ops V (main_arg2 : DevRef τ sig) = V (main_arg2 : DevRef τ sig) := by
  after_results_simp

set_option maxHeartbeats 2000000 in
set_option maxRecDepth 8192 in
private theorem ops_main_arg3 (V : Valuation τ sig (Elt F)) :
    after ops V (main_arg3 : DevRef τ sig) = V (main_arg3 : DevRef τ sig) := by
  after_results_simp

set_option maxHeartbeats 2000000 in
set_option maxRecDepth 8192 in
private theorem ops_main_arg4 (V : Valuation τ sig (Elt F)) :
    after ops V (main_arg4 : DevRef τ sig) = V (main_arg4 : DevRef τ sig) := by
  after_results_simp

/-! First stretch: the targets, and the column of sources. -/
set_option maxHeartbeats 2000000 in
set_option maxRecDepth 8192 in
private theorem A1_v3 (V : Valuation τ sig (Elt F)) :
    after opsA1 V (main_v3 : DevRef τ sig) = RefTerm.dstR (V (main_arg1 : DevRef τ sig)) := by
  unfold RefTerm.dstR
  after_results_simp <;> rfl

set_option maxHeartbeats 2000000 in
set_option maxRecDepth 8192 in
private theorem A1_col (V : Valuation τ sig (Elt F)) :
    after opsA1 V (main_call0_v5 : DevRef τ sig) = RefTerm.colR (V (main_arg1 : DevRef τ sig)) := by
  unfold RefTerm.colR RefTerm.srcR
  after_results_simp <;> rfl

set_option maxHeartbeats 2000000 in
set_option maxRecDepth 8192 in
private theorem A1_main_arg0 (V : Valuation τ sig (Elt F)) :
    after opsA1 V (main_arg0 : DevRef τ sig) = V (main_arg0 : DevRef τ sig) := by
  after_results_simp

set_option maxHeartbeats 2000000 in
set_option maxRecDepth 8192 in
private theorem A1_main_arg2 (V : Valuation τ sig (Elt F)) :
    after opsA1 V (main_arg2 : DevRef τ sig) = V (main_arg2 : DevRef τ sig) := by
  after_results_simp

set_option maxHeartbeats 2000000 in
set_option maxRecDepth 8192 in
private theorem A1_main_arg3 (V : Valuation τ sig (Elt F)) :
    after opsA1 V (main_arg3 : DevRef τ sig) = V (main_arg3 : DevRef τ sig) := by
  after_results_simp

set_option maxHeartbeats 2000000 in
set_option maxRecDepth 8192 in
private theorem A1_main_arg4 (V : Valuation τ sig (Elt F)) :
    after opsA1 V (main_arg4 : DevRef τ sig) = V (main_arg4 : DevRef τ sig) := by
  after_results_simp

/-! Second stretch: the gathered rows. -/
set_option maxHeartbeats 2000000 in
set_option maxRecDepth 8192 in
private theorem A2_v4 (V : Valuation τ sig (Elt F)) :
    after opsA2 V (main_v4 : DevRef τ sig) = msgCore (V (main_arg0 : DevRef τ sig)) (V (main_call0_v5 : DevRef τ sig)) := by
  unfold msgCore
  after_results_simp <;> with_reducible rfl

set_option maxHeartbeats 2000000 in
set_option maxRecDepth 8192 in
private theorem A2_main_v3 (V : Valuation τ sig (Elt F)) :
    after opsA2 V (main_v3 : DevRef τ sig) = V (main_v3 : DevRef τ sig) := by
  after_results_simp

set_option maxHeartbeats 2000000 in
set_option maxRecDepth 8192 in
private theorem A2_main_arg0 (V : Valuation τ sig (Elt F)) :
    after opsA2 V (main_arg0 : DevRef τ sig) = V (main_arg0 : DevRef τ sig) := by
  after_results_simp

set_option maxHeartbeats 2000000 in
set_option maxRecDepth 8192 in
private theorem A2_main_arg2 (V : Valuation τ sig (Elt F)) :
    after opsA2 V (main_arg2 : DevRef τ sig) = V (main_arg2 : DevRef τ sig) := by
  after_results_simp

set_option maxHeartbeats 2000000 in
set_option maxRecDepth 8192 in
private theorem A2_main_arg3 (V : Valuation τ sig (Elt F)) :
    after opsA2 V (main_arg3 : DevRef τ sig) = V (main_arg3 : DevRef τ sig) := by
  after_results_simp

set_option maxHeartbeats 2000000 in
set_option maxRecDepth 8192 in
private theorem A2_main_arg4 (V : Valuation τ sig (Elt F)) :
    after opsA2 V (main_arg4 : DevRef τ sig) = V (main_arg4 : DevRef τ sig) := by
  after_results_simp

/-! Third stretch: the means. -/
set_option maxHeartbeats 2000000 in
set_option maxRecDepth 8192 in
private theorem B1_v16 (V : Valuation τ sig (Elt F)) :
    after opsB1 V (main_v16 : DevRef τ sig) = meanCore (V (main_v3 : DevRef τ sig)) (V (main_v4 : DevRef τ sig)) := by
  unfold meanCore
  after_results_simp <;> rfl

set_option maxHeartbeats 2000000 in
set_option maxRecDepth 8192 in
private theorem B1_main_arg0 (V : Valuation τ sig (Elt F)) :
    after opsB1 V (main_arg0 : DevRef τ sig) = V (main_arg0 : DevRef τ sig) := by
  after_results_simp

set_option maxHeartbeats 2000000 in
set_option maxRecDepth 8192 in
private theorem B1_main_arg2 (V : Valuation τ sig (Elt F)) :
    after opsB1 V (main_arg2 : DevRef τ sig) = V (main_arg2 : DevRef τ sig) := by
  after_results_simp

set_option maxHeartbeats 2000000 in
set_option maxRecDepth 8192 in
private theorem B1_main_arg3 (V : Valuation τ sig (Elt F)) :
    after opsB1 V (main_arg3 : DevRef τ sig) = V (main_arg3 : DevRef τ sig) := by
  after_results_simp

set_option maxHeartbeats 2000000 in
set_option maxRecDepth 8192 in
private theorem B1_main_arg4 (V : Valuation τ sig (Elt F)) :
    after opsB1 V (main_arg4 : DevRef τ sig) = V (main_arg4 : DevRef τ sig) := by
  after_results_simp

/-! Fourth stretch: the logits. -/
set_option maxHeartbeats 2000000 in
set_option maxRecDepth 8192 in
private theorem B2_v24 (V : Valuation τ sig (Elt F)) :
    after opsB2 V (main_v24 : DevRef τ sig) = RefTerm.logitsR (V (main_v16 : DevRef τ sig)) (V (main_arg0 : DevRef τ sig)) (V (main_arg2 : DevRef τ sig))
      (V (main_arg3 : DevRef τ sig)) (V (main_arg4 : DevRef τ sig)) := by
  unfold RefTerm.logitsR
  after_results_simp <;> rfl

/-! Fifth stretch: the log-softmax. -/
set_option maxHeartbeats 2000000 in
set_option maxRecDepth 8192 in
private theorem C_v25 (V : Valuation τ sig (Elt F)) :
    after opsC V (main_v25 : DevRef τ sig) = RefTerm.lsmR (V (main_v24 : DevRef τ sig)) := by
  unfold RefTerm.lsmR RefTerm.shiftedR
  after_results_simp <;> with_reducible rfl

/-- The result buffer after the whole line: the stretches' values composed. -/
private theorem out_eq (V : Valuation τ sig (Elt F)) :
    after ops V (main_v25 : DevRef τ sig)
      = RefTerm.lsmR (RefTerm.logitsR
          (RefTerm.meanR (V (main_arg0 : DevRef τ sig)) (V (main_arg1 : DevRef τ sig)))
          (V (main_arg0 : DevRef τ sig)) (V (main_arg2 : DevRef τ sig)) (V (main_arg3 : DevRef τ sig)) (V (main_arg4 : DevRef τ sig))) := by
  rw [ops_split, after_app, after_app, after_app, after_app, C_v25, B2_v24, B1_v16,
    B1_main_arg0, B1_main_arg2, B1_main_arg3, B1_main_arg4, A2_v4, A2_main_v3,
    A2_main_arg0, A2_main_arg2, A2_main_arg3, A2_main_arg4, A1_v3, A1_col,
    A1_main_arg0, A1_main_arg2, A1_main_arg3, A1_main_arg4, meanR_eq, msgR_eq]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = RefTerm.lsmR (RefTerm.logitsR
              (RefTerm.meanR (m ((c.tc : Thread nD τ).loc main_arg0)) (m ((c.tc : Thread nD τ).loc main_arg1)))
              (m ((c.tc : Thread nD τ).loc main_arg0)) (m ((c.tc : Thread nD τ).loc main_arg2))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun _ h c => ⟨(h c main_v25).trans (out_eq _),
      (h c main_arg0).trans (ops_main_arg0 _), (h c main_arg1).trans (ops_main_arg1 _), (h c main_arg2).trans (ops_main_arg2 _),
      (h c main_arg3).trans (ops_main_arg3 _), (h c main_arg4).trans (ops_main_arg4 _)⟩)
    (run_all m ρ)

end Cert.ReferenceIdeal.RefRun

end
-- ==== Proof.RefValue.lean ====
/-
  The reference's result term, read at the extended reals, is the specification: entry (r, c) is the log-softmax at c of
  node r's row of logits.

  Each operation of the term is read at an index (r, c), outermost first. A matrix product at (r, c) is the sum over
  k < 128 of the left operand at (r, k) times the right operand at (k, c); the right operand is a transposed weight
  matrix, so that entry is the weight at (c, k). The bias reaches (r, c) through two broadcasts as b(c). A row's
  maximum is the fold of max from −∞ over the 64 columns, and the further maximum against −∞ changes nothing. A row's
  sum starts from zero. The column of row values reaches (r, c) through two broadcasts as the value at r. What remains is
  the order of the three summands of a logit, which addition on the extended reals does not mind.
-/
import proofs.«133941_j79319456023391_1_alg».proof.Proof.RefTerm
import proofs.«133941_j79319456023391_1_alg».proof.Proof.Spec
import proofs.«133941_j79319456023391_1_alg».proof.Proof.LibOuterDot
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The matrix product at an index -/

/-- The host's plain matrix product [m, k] × [k, n] at (p, q): the sum over j < k of A(p, j) · B(j, q). The host's
    product has no accumulator and equals the product into a zero accumulator, whose entries are these sums. -/
private theorem hostDot_ix2 {m k n : ℕ} {φ₁ φ₂ : FTy}
    (d : DotDims ⟨2, ![m, k]⟩ ⟨2, ![k, n]⟩ ⟨2, ![m, n]⟩) (hr : d.contr.rank = 1) (hs : d.contr.size ⟨0, by omega⟩ = k)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂) (p : Fin m) (q : Fin n) :
    Host.dotGeneral d prec A B (ix2 p q) = ∑ j : Fin k, A (ix2 p j) * B (ix2 j q) := by
  rw [← matmul_zero_eq_dotGeneral d prec A B]
  exact Cert.LibOuterDot.matmul_zero_ix2 d hr hs hlc hrc hln hrn hlb hrb prec A B p q

/-- A node's features against a transposed weight matrix at (r, c): the sum over k of X(r, k) · W(c, k). -/
private theorem dotT_apply (X : FVec Ideal S100000x128 .f32) (W : FVec Ideal S64x128 .f32) (r : Fin 100000) (c : Fin 64) :
    Host.dotGeneral dot_S100000x128_S128x64_S100000x64_1_0_0_1_n_n none X
        (transpose S128x64 [1, 0] W transposes_S64x128_S128x64_1_0) (ix2 r c)
      = ∑ k : Fin 128, X (ix2 r k) * W (ix2 c k) := by
  refine (hostDot_ix2 dot_S100000x128_S128x64_S100000x64_1_0_0_1_n_n rfl rfl rfl rfl rfl rfl rfl rfl none X _ r c).trans ?_
  refine Finset.sum_congr rfl fun k _ => ?_
  rw [transpose_ix2_apply]

/-! ## The broadcasts at an index -/

/-- The bias laid along every row: at (r, c) it is b(c). -/
private theorem bias_apply (b : FVec Ideal S64 .f32) (r : Fin 100000) (c : Fin 64) :
    broadcastInDim S100000x64 ![0, 1] bcast_S1x64_S100000x64_0_1 (broadcastInDim S1x64 ![1] bcast_S64_S1x64_1 b) (ix2 r c)
      = b (ix1 c) := by
  refine (broadcastInDim_apply _ _ _ (ix2 r c) (ix2 (0 : Fin 1) c) ?_).trans ?_
  · intro a
    match a with
    | ⟨0, _⟩ => rfl
    | ⟨1, _⟩ => rfl
  · refine broadcastInDim_apply _ _ _ _ (ix1 c) ?_
    intro a
    match a with
    | ⟨0, _⟩ => rfl

/-- A one-column array laid along every column: at (r, c) it is the column's entry at r. -/
private theorem col_apply {α : Type} (w : S100000x1.Idx → α) (r : Fin 100000) (c : Fin 64) :
    broadcastInDim S100000x64 ![0, 1] bcast_S100000x1_S100000x64_0_1 w (ix2 r c) = w (ix2 r (0 : Fin 1)) := by
  refine broadcastInDim_apply _ _ _ (ix2 r c) (ix2 r (0 : Fin 1)) ?_
  intro a
  match a with
  | ⟨0, _⟩ => rfl
  | ⟨1, _⟩ => rfl

/-- A vector of row values made a column: at (r, 0) it is the value at r. -/
private theorem toCol_apply {α : Type} (v : S100000.Idx → α) (r : Fin 100000) :
    broadcastInDim S100000x1 ![0] bcast_S100000_S100000x1_0 v (ix2 r (0 : Fin 1)) = v (ix1 r) := by
  refine broadcastInDim_apply _ _ _ _ (ix1 r) ?_
  intro a
  match a with
  | ⟨0, _⟩ => rfl

/-! ## The reductions over a row -/

/-- The row index r with column k put back is (r, k). -/
private theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext a
  apply Fin.ext
  fin_cases a <;> rfl

/-- The host's maximum over a row, from −∞, is the specification's row maximum. -/
private theorem hostMax_apply (h : S100000x64.Reduces [1] S100000) (z : FVec Ideal S100000x64 .f32) (r : Fin 100000) :
    Host.reduce FloatOps.maximumf z (constant S_ .f32 0xFF800000#32) reducesTo_S100000x64_S100000_d1 h_S_ (ix1 r)
      = Cert.Spec.rowMax fun k => z (ix2 r k) := by
  rw [Host.reduce_eq_fold_single FloatOps.maximumf z _ reducesTo_S100000x64_S100000_d1 h h_S_]
  have hf : (z ∘ h.lift (ix1 r)) = fun k : Fin 64 => z (ix2 r k) := funext fun k => congrArg z (lift_row h r k)
  rw [hf]
  rfl

/-- The host's sum over a row, from zero, is the sum over the 64 columns. -/
private theorem hostSum_apply (h : S100000x64.Reduces [1] S100000) (y : FVec Ideal S100000x64 .f32) (r : Fin 100000) :
    Host.reduceAdd y (constant S_ .f32 0x00000000#32) reducesTo_S100000x64_S100000_d1 h_S_ (ix1 r)
      = ∑ k : Fin 64, y (ix2 r k) := by
  show Ideal.hostReduceAdd reducesTo_S100000x64_S100000_d1 y (Ideal.ofBits .f32 0x00000000#32) (ix1 r) = _
  rw [Ideal.hostReduceAdd_single reducesTo_S100000x64_S100000_d1 h, Ideal.ofBits_zero_f32, zero_add]
  exact Finset.sum_congr rfl fun k _ => congrArg y (lift_row h r k)

/-- The host's logarithm and exponential act entry by entry. -/
private theorem hostLog_apply {s : Shape} (w : FVec Ideal s .f32) (i : s.Idx) : Host.log w i = Ideal.log (w i) := rfl
private theorem hostExp_apply {s : Shape} (w : FVec Ideal s .f32) (i : s.Idx) : Host.exp w i = Ideal.exp (w i) := rfl

/-! ## The three named terms at an index -/

/-- A logit of the reference is the specification's: the same three summands, the bias second instead of last. -/
private theorem logitsR_apply (M x : FVec Ideal S100000x128 .f32) (wl : FVec Ideal S64x128 .f32) (b : FVec Ideal S64 .f32)
    (wr : FVec Ideal S64x128 .f32) (r : Fin 100000) (c : Fin 64) :
    RefTerm.logitsR (F := Ideal) M x wl b wr (ix2 r c) = Cert.Spec.logits M x wl wr b r c := by
  unfold RefTerm.logitsR Cert.Spec.logits
  rw [addf_apply, addf_apply, dotT_apply, dotT_apply, bias_apply]
  exact add_right_comm _ _ _

/-- A row less its maximum, at (r, c). -/
private theorem shiftedR_apply (h : S100000x64.Reduces [1] S100000) (z : FVec Ideal S100000x64 .f32) (r : Fin 100000)
    (c : Fin 64) :
    RefTerm.shiftedR (F := Ideal) z (ix2 r c) = z (ix2 r c) - Cert.Spec.rowMax fun k => z (ix2 r k) := by
  unfold RefTerm.shiftedR
  rw [subf_apply, col_apply, toCol_apply, maximumf_apply, hostMax_apply h]
  show z (ix2 r c) - max (Ideal.ofBits .f32 0xFF800000#32) _ = _
  rw [Cert.Spec.max_negInf]

/-- The log-softmax term at (r, c) is the specification's row function of row r of its operand. -/
private theorem lsmR_apply (h : S100000x64.Reduces [1] S100000) (z : FVec Ideal S100000x64 .f32) (r : Fin 100000)
    (c : Fin 64) :
    RefTerm.lsmR (F := Ideal) z (ix2 r c) = Cert.Spec.logSoftmaxRow (fun k => z (ix2 r k)) c := by
  unfold RefTerm.lsmR Cert.Spec.logSoftmaxRow
  have hs : ∀ k : Fin 64, Host.exp (RefTerm.shiftedR (F := Ideal) z) (ix2 r k)
      = Ideal.exp (z (ix2 r k) - Cert.Spec.rowMax fun j => z (ix2 r j)) := fun k => by
    rw [hostExp_apply, shiftedR_apply h]
  rw [subf_apply, shiftedR_apply h, col_apply, hostLog_apply, toCol_apply, hostSum_apply h,
    Finset.sum_congr rfl fun k _ => hs k]

theorem lsm_logits_eq_G (M x : FVec Ideal S100000x128 .f32) (wl : FVec Ideal S64x128 .f32) (b : FVec Ideal S64 .f32)
    (wr : FVec Ideal S64x128 .f32) :
    RefTerm.lsmR (F := Ideal) (RefTerm.logitsR M x wl b wr) = Cert.Spec.G M x wl wr b := by
  have h : S100000x64.Reduces [1] S100000 := by decide
  funext i
  obtain ⟨r, c, rfl⟩ : ∃ (r : Fin 100000) (c : Fin 64), i = ix2 r c := ⟨i 0, i 1, eq_ix2 i⟩
  rw [Cert.Spec.G_ix2, lsmR_apply h]
  exact congrArg (fun f => Cert.Spec.logSoftmaxRow f c) (funext fun k => logitsR_apply M x wl b wr r k)

end Cert.ReferenceIdeal.RefValue

end
-- ==== Proof.Mean.lean ====
/-
  The neighbour means are one function in both programs: the kernel program and the reference compute them by the same
  operations in the same order — the gather of the source rows, the two scatter-additions over the targets, the
  division by the clamped in-degree — so the two named terms are the same term.
-/
import proofs.«133941_j79319456023391_1_alg».proof.Proof.KernelTerm
import proofs.«133941_j79319456023391_1_alg».proof.Proof.RefTerm

noncomputable section

namespace Cert.Mean

open Idealize.ShloMosaic

variable {F : FTy → Type} [FloatOps F]

theorem meanK_eq_meanR (x : FVec F ⟨2, ![100000, 128]⟩ .f32) (e : IVec ⟨2, ![2, 1600000]⟩ 32) :
    Cert.KernelIdeal.KerTerm.meanK x e = Cert.ReferenceIdeal.RefTerm.meanR x e := rfl

end Cert.Mean

end
-- ==== Proof.lean ====
/-
  A GraphSAGE layer with mean aggregation followed by a log-softmax, against its plain reference.

  Both programs first form the neighbour means M (the same host operations on the features x and the edge list). The
  reference then takes (M · Wlᵀ + b) + x · Wrᵀ over all 100000 rows at once and the log-softmax of each row. The kernel
  tiles the rows in twenty blocks of 5000; on a block it takes M · Wlᵀ + x · Wrᵀ + b (its operands rounded to a shorter
  format first, which is the identity on the extended reals) and the log-softmax of each row. Row by row these are one
  function: addition on the extended reals is commutative and associative, and both log-softmaxes shift by the row
  maximum taken from −∞. No finiteness of the inputs is used.

  The three frames: the kernel programs' are the generated ones; the reference's is its run with the result dropped.
  The idealization rewrote nothing, so there is nothing to preserve.
-/
import proofs.«133941_j79319456023391_1_alg».proof.Defs
import proofs.«133941_j79319456023391_1_alg».proof.Proof.Gen.Kernel
import proofs.«133941_j79319456023391_1_alg».proof.Proof.Gen.Kernel.Skeleton
import proofs.«133941_j79319456023391_1_alg».proof.Proof.Gen.Kernel.Launch
import proofs.«133941_j79319456023391_1_alg».proof.Proof.Gen.Kernel.Points
import proofs.«133941_j79319456023391_1_alg».proof.Proof.Gen.Kernel.Frame
import proofs.«133941_j79319456023391_1_alg».proof.Proof.Gen.KernelIdeal
import proofs.«133941_j79319456023391_1_alg».proof.Proof.Gen.KernelIdeal.Skeleton
import proofs.«133941_j79319456023391_1_alg».proof.Proof.Gen.KernelIdeal.Launch
import proofs.«133941_j79319456023391_1_alg».proof.Proof.Gen.KernelIdeal.Points
import proofs.«133941_j79319456023391_1_alg».proof.Proof.Gen.KernelIdeal.Frame
import proofs.«133941_j79319456023391_1_alg».proof.Proof.Gen.KernelIdeal.Value
import proofs.«133941_j79319456023391_1_alg».proof.Proof.Gen.ReferenceIdeal
import proofs.«133941_j79319456023391_1_alg».proof.Proof.Gen.Pre_finite_inputs
import proofs.«133941_j79319456023391_1_alg».proof.Proof.KernelBlocks
import proofs.«133941_j79319456023391_1_alg».proof.Proof.RefRun
import proofs.«133941_j79319456023391_1_alg».proof.Proof.RefValue
import proofs.«133941_j79319456023391_1_alg».proof.Proof.Mean
import Idealize.ShloMosaic.Adequacy
import Idealize.ShloMosaic.Init

noncomputable section

namespace Cert.Proof

open Idealize.ShloMosaic Idealize.SL.Sem Cert.Kernel

/-- Run from memories agreeing on the arguments, both idealized programs end with the result array at the
    specification of the neighbour means, the features, the weights and the bias. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4⟩ := hagree c
  rw [a0, a1, a2, a3, a4, Cert.ReferenceIdeal.RefValue.lsm_logits_eq_G, ← Cert.Mean.meanK_eq_meanR]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  algebraic⟩

end Cert.Proof

end
